-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S2000000x2 : Shape := ⟨2, ![2000000, 2]⟩
abbrev S50x2 : Shape := ⟨2, ![50, 2]⟩
abbrev S50 : Shape := ⟨1, ![50]⟩
abbrev S2x50 : Shape := ⟨2, ![2, 50]⟩
abbrev S2 : Shape := ⟨1, ![2]⟩

class Facts : Prop where
  reducesTo_S_S_d : S_.ReducesTo [] S_
  h_S_ : 0 < S_.numel
  bcast_S_S2000000x2 : S_.BroadcastsInDim S2000000x2 (![] : Fin 0 → Fin S2000000x2.rank)
  reducesTo_S2000000x2_S_d0_1 : S2000000x2.ReducesTo [0, 1] S_
  bcast_S_S50x2 : S_.BroadcastsInDim S50x2 (![] : Fin 0 → Fin S50x2.rank)
  reducesTo_S50x2_S_d0_1 : S50x2.ReducesTo [0, 1] S_
  bcast_S_S50 : S_.BroadcastsInDim S50 (![] : Fin 0 → Fin S50.rank)
  reducesTo_S50_S_d0 : S50.ReducesTo [0] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2x50 .f32) (main_arg5 : FVec F S2 .f32) (main_v12 : IVec S_ 1) (main_v15 : IVec S50 1) (main_c_5 : IVec S_ 1) : IVec S_ 1 :=
  let main_v16 : IVec S_ 1 := (fun x v => Host.reduce IntOp.andi x v reducesTo_S50_S_d0 h_S_) main_v15 main_c_5
  let main_v17 : IVec S_ 1 := andi main_v12 main_v16
  let main_v18 : FVec F S2x50 .f32 := Host.absf main_arg4
  let main_cst_6 : FVec F S_ .f32 := constant S_ .f32 0x7F800000#32
  let main_v19 : FVec F S2x50 .f32 := broadcastInDim S2x50 ![] bcast_S_S2x50 main_cst_6
  let main_v20 : IVec S2x50 1 := cmpf .olt main_v18 main_v19
  let main_c_7 : IVec S_ 1 := constantI S_ 1 1#1
  let main_v21 : IVec S_ 1 := (fun x v => Host.reduce IntOp.andi x v reducesTo_S2x50_S_d0_1 h_S_) main_v20 main_c_7
  let main_v22 : IVec S_ 1 := andi main_v17 main_v21
  let main_v23 : FVec F S2 .f32 := Host.absf main_arg5
  let main_cst_8 : FVec F S_ .f32 := constant S_ .f32 0x7F800000#32
  let main_v24 : FVec F S2 .f32 := broadcastInDim S2 ![] bcast_S_S2 main_cst_8
  let main_v25 : IVec S2 1 := cmpf .olt main_v23 main_v24
  let main_c_9 : IVec S_ 1 := constantI S_ 1 1#1
  let main_v26 : IVec S_ 1 := (fun x v => Host.reduce IntOp.andi x v reducesTo_S2_S_d0 h_S_) main_v25 main_c_9
  let main_v27 : IVec S_ 1 := andi main_v22 main_v26
  main_v27

def fn {F : FTy → Type} [FloatOps F] (main_arg0 : FVec F S_ .f32) (main_arg1 : FVec F S2000000x2 .f32) (main_arg2 : FVec F S50x2 .f32) (main_arg3 : FVec F S50 .f32) (main_arg4 : FVec F S2x50 .f32) (main_arg5 : FVec F S2 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S2000000x2 .f32 := Host.absf main_arg1
  let main_cst_0 : FVec F S_ .f32 := constant S_ .f32 0x7F800000#32
  let main_v4 : FVec F S2000000x2 .f32 := broadcastInDim S2000000x2 ![] bcast_S_S2000000x2 main_cst_0
  let main_v5 : IVec S2000000x2 1 := cmpf .olt main_v3 main_v4
  let main_c_1 : IVec S_ 1 := constantI S_ 1 1#1
  let main_v6 : IVec S_ 1 := (fun x v => Host.reduce IntOp.andi x v reducesTo_S2000000x2_S_d0_1 h_S_) main_v5 main_c_1
  let main_v7 : IVec S_ 1 := andi main_v2 main_v6
  let main_v8 : FVec F S50x2 .f32 := Host.absf main_arg2
  let main_cst_2 : FVec F S_ .f32 := constant S_ .f32 0x7F800000#32
  let main_v9 : FVec F S50x2 .f32 := broadcastInDim S50x2 ![] bcast_S_S50x2 main_cst_2
  let main_v10 : IVec S50x2 1 := cmpf .olt main_v8 main_v9
  let main_c_3 : IVec S_ 1 := constantI S_ 1 1#1
  let main_v11 : IVec S_ 1 := (fun x v => Host.reduce IntOp.andi x v reducesTo_S50x2_S_d0_1 h_S_) main_v10 main_c_3
  let main_v12 : IVec S_ 1 := andi main_v7 main_v11
  let main_v13 : FVec F S50 .f32 := Host.absf main_arg3
  let main_cst_4 : FVec F S_ .f32 := constant S_ .f32 0x7F800000#32
  let main_v14 : FVec F S50 .f32 := broadcastInDim S50 ![] bcast_S_S50 main_cst_4
  let main_v15 : IVec S50 1 := cmpf .olt main_v13 main_v14
  let main_c_5 : IVec S_ 1 := constantI S_ 1 1#1
  fn_part1 (F := F) main_arg4 main_arg5 main_v12 main_v15 main_c_5
-- ==== Kernel.lean ====
abbrev S_ : Shape := ⟨0, ![]⟩
abbrev S2000000x2 : Shape := ⟨2, ![2000000, 2]⟩
abbrev S50x2 : Shape := ⟨2, ![50, 2]⟩
abbrev S50 : Shape := ⟨1, ![50]⟩
abbrev S2x50 : Shape := ⟨2, ![2, 50]⟩
abbrev S2 : Shape := ⟨1, ![2]⟩
abbrev S2x2000000 : Shape := ⟨2, ![2, 2000000]⟩
abbrev S50x1 : Shape := ⟨2, ![50, 1]⟩
abbrev S2x1 : Shape := ⟨2, ![2, 1]⟩
abbrev S2x80000 : Shape := ⟨2, ![2, 80000]⟩
abbrev S2x16000 : Shape := ⟨2, ![2, 16000]⟩
abbrev S50x16000 : Shape := ⟨2, ![50, 16000]⟩

abbrev nBuf : Space → Nat
  | .hbm => 11
  | .vmem => 8
  | .smem => 0
  | _ => 0

abbrev bufTy : (tb : Table) → Fin (tcTables nBuf tb) → BufTy
  | .hbm, ⟨0, _⟩ => ⟨S_, .f32⟩
  | .hbm, ⟨1, _⟩ => ⟨S2000000x2, .f32⟩
  | .hbm, ⟨2, _⟩ => ⟨S50x2, .f32⟩
  | .hbm, ⟨3, _⟩ => ⟨S50, .f32⟩
  | .hbm, ⟨4, _⟩ => ⟨S2x50, .f32⟩
  | .hbm, ⟨5, _⟩ => ⟨S2, .f32⟩
  | .hbm, ⟨6, _⟩ => ⟨S2x2000000, .f32⟩
  | .hbm, ⟨7, _⟩ => ⟨S50x1, .f32⟩
  | .hbm, ⟨8, _⟩ => ⟨S2x1, .f32⟩
  | .hbm, ⟨9, _⟩ => ⟨S2x2000000, .f32⟩
  | .hbm, ⟨10, _⟩ => ⟨S2000000x2, .f32⟩
  | .local _ .vmem, ⟨0, _⟩ => ⟨S2x80000, .f32⟩
  | .local _ .vmem, ⟨1, _⟩ => ⟨S2x80000, .f32⟩
  | .local _ .vmem, ⟨2, _⟩ => ⟨S50x2, .f32⟩
  | .local _ .vmem, ⟨3, _⟩ => ⟨S50x1, .f32⟩
  | .local _ .vmem, ⟨4, _⟩ => ⟨S2x50, .f32⟩
  | .local _ .vmem, ⟨5, _⟩ => ⟨S2x1, .f32⟩
  | .local _ .vmem, ⟨6, _⟩ => ⟨S2x80000, .f32⟩
  | .local _ .vmem, ⟨7, _⟩ => ⟨S2x80000, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_mult1 : BitVec 32 :=
  let c0_i32 : BitVec 32 := 0#32
  let c16000_i32 : BitVec 32 := 16000#32
  let v8 : BitVec 32 := Scalar.muli c0_i32 c16000_i32
  v8
def k0_off1 (c0_i32 : BitVec 32) : Fin 2 → Nat :=
  let c0_7 : Index := 0#32
  let c16000_i32 : BitVec 32 := 16000#32
  let v8 : BitVec 32 := Scalar.muli c0_i32 c16000_i32
  let v9 : BitVec 32 := v8
  let v10 : Index := Scalar.indexCast v9
  ![0, v10.toNat]
def k0_mult2 : BitVec 32 :=
  let c1_i32 : BitVec 32 := 1#32
  let c16000_i32_10 : BitVec 32 := 16000#32
  let v24 : BitVec 32 := Scalar.muli c1_i32 c16000_i32_10
  v24
def k0_mult3 : BitVec 32 :=
  let c2_i32 : BitVec 32 := 2#32
  let c16000_i32_15 : BitVec 32 := 16000#32
  let v40 : BitVec 32 := Scalar.muli c2_i32 c16000_i32_15
  v40
def k0_mult4 : BitVec 32 :=
  let c3_i32 : BitVec 32 := 3#32
  let c16000_i32_20 : BitVec 32 := 16000#32
  let v56 : BitVec 32 := Scalar.muli c3_i32 c16000_i32_20
  v56
def k0_mult5 : BitVec 32 :=
  let c4_i32 : BitVec 32 := 4#32
  let c16000_i32_25 : BitVec 32 := 16000#32
  let v72 : BitVec 32 := Scalar.muli c4_i32 c16000_i32_25
  v72
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x80000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2000000x2_S2x2000000_1_0 : S2000000x2.Transposes [1, 0] S2x2000000
  shapeCasts_S50_S50x1 : S50.ShapeCasts S50x1
  shapeCasts_S2_S2x1 : S2.ShapeCasts S2x1
  inb_S50x2_S50x2_0_0 : ∀ a, (![0, 0] : Fin 2 → Nat) a + S50x2.size a ≤ S50x2.size a
  h_S50x2 : 0 < S50x2.numel
  bitsLt_bf16_f32 : FTy.bits .bf16 < FTy.bits .f32
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S2x50_S2x50_0_0 : ∀ a, (![0, 0] : Fin 2 → Nat) a + S2x50.size a ≤ S2x50.size a
  h_S2x50 : 0 < S2x50.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  h_S2x16000 : 0 < S2x16000.numel
  shapeCasts_S2x16000_S2x16000 : S2x16000.ShapeCasts S2x16000
  broadcasts_S50x1_S50x16000 : S50x1.Broadcasts S50x16000
  broadcasts_S2x1_S2x16000 : S2x1.Broadcasts S2x16000
  transposes_S2x2000000_S2000000x2_1_0 : S2x2000000.Transposes [1, 0] S2000000x2
  dot_S50x2_S2x16000_S50x16000_1_0_0_1_n_n_wf : DotDims.WF S50x2 S2x16000 S50x16000 [1] [0] [0] [1] [] []
  dot_S2x50_S50x16000_S2x16000_1_0_0_1_n_n_wf : DotDims.WF S2x50 S50x16000 S2x16000 [1] [0] [0] [1] [] []
  hrank0 : 0 < grid0.rank
  k0_mult1_dvd : 128 ∣ k0_mult1.toNat
  k0_off1_inb : ∀ (r : Fin 5), ∀ a, (k0_off1 (BitVec.ofNat 32 r.val)) a + S2x16000.size a ≤ S2x80000.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x80000.size a ≤ S2x2000000.size a
  hwx0_0 : ∀ i : grid0.Coords, EltTy.bits .f32 = 32 ∨ (Rect.block (s := S2x2000000) S2x80000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x2.size a ≤ S50x2.size a
  hwx0_1 : ∀ i : grid0.Coords, EltTy.bits .f32 = 32 ∨ (Rect.block (s := S50x2) S50x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x1.size a ≤ S50x1.size a
  hwx0_2 : ∀ i : grid0.Coords, EltTy.bits .f32 = 32 ∨ (Rect.block (s := S50x1) S50x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x50.size a ≤ S2x50.size a
  hwx0_3 : ∀ i : grid0.Coords, EltTy.bits .f32 = 32 ∨ (Rect.block (s := S2x50) S2x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x80000.size a ≤ S2x2000000.size a
  hwx0_5 : ∀ i : grid0.Coords, EltTy.bits .f32 = 32 ∨ (Rect.block (s := S2x2000000) S2x80000.size (cc0_transform_5 i) (hinb0_5 i)).WholeWords (EltTy.packing .f32)

variable [Facts₀]

def dot_S50x2_S2x16000_S50x16000_1_0_0_1_n_n : DotDims S50x2 S2x16000 S50x16000 where
  lhsContracting := [1]
  rhsContracting := [0]
  lhsNonContracting := [0]
  rhsNonContracting := [1]
  lhsBatch := []
  rhsBatch := []
  wf := dot_S50x2_S2x16000_S50x16000_1_0_0_1_n_n_wf
def dot_S2x50_S50x16000_S2x16000_1_0_0_1_n_n : DotDims S2x50 S50x16000 S2x16000 where
  lhsContracting := [1]
  rhsContracting := [0]
  lhsNonContracting := [0]
  rhsNonContracting := [1]
  lhsBatch := []
  rhsBatch := []
  wf := dot_S2x50_S50x16000_S2x16000_1_0_0_1_n_n_wf

abbrev win0_0 : Pipeline.Window sig grid0 :=
  Pipeline.Window.ofSpec (Memref.whole main_v0) S2x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S50x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S50x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x80000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S_ : Shape := ⟨0, ![]⟩
abbrev S2000000x2 : Shape := ⟨2, ![2000000, 2]⟩
abbrev S50x2 : Shape := ⟨2, ![50, 2]⟩
abbrev S50 : Shape := ⟨1, ![50]⟩
abbrev S2x50 : Shape := ⟨2, ![2, 50]⟩
abbrev S2 : Shape := ⟨1, ![2]⟩
abbrev S2000000x50 : Shape := ⟨2, ![2000000, 50]⟩
abbrev S1x50 : Shape := ⟨2, ![1, 50]⟩
abbrev S1x2 : Shape := ⟨2, ![1, 2]⟩

abbrev nBuf : Space → Nat
  | .hbm => 17
  | .vmem => 0
  | .smem => 0
  | _ => 0

abbrev bufTy : (tb : Table) → Fin (tcTables nBuf tb) → BufTy
  | .hbm, ⟨0, _⟩ => ⟨S_, .f32⟩
  | .hbm, ⟨1, _⟩ => ⟨S2000000x2, .f32⟩
  | .hbm, ⟨2, _⟩ => ⟨S50x2, .f32⟩
  | .hbm, ⟨3, _⟩ => ⟨S50, .f32⟩
  | .hbm, ⟨4, _⟩ => ⟨S2x50, .f32⟩
  | .hbm, ⟨5, _⟩ => ⟨S2, .f32⟩
  | .hbm, ⟨6, _⟩ => ⟨S2x50, .f32⟩
  | .hbm, ⟨7, _⟩ => ⟨S2000000x50, .f32⟩
  | .hbm, ⟨8, _⟩ => ⟨S1x50, .f32⟩
  | .hbm, ⟨9, _⟩ => ⟨S2000000x50, .f32⟩
  | .hbm, ⟨10, _⟩ => ⟨S2000000x50, .f32⟩
  | .hbm, ⟨11, _⟩ => ⟨S2000000x50, .f32⟩
  | .hbm, ⟨12, _⟩ => ⟨S50x2, .f32⟩
  | .hbm, ⟨13, _⟩ => ⟨S2000000x2, .f32⟩
  | .hbm, ⟨14, _⟩ => ⟨S1x2, .f32⟩
  | .hbm, ⟨15, _⟩ => ⟨S2000000x2, .f32⟩
  | .hbm, ⟨16, _⟩ => ⟨S2000000x2, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S50x2_S2x50_1_0 : S50x2.Transposes [1, 0] S2x50
  bcast_S50_S1x50_1 : S50.BroadcastsInDim S1x50 (![1] : Fin 1 → Fin S1x50.rank)
  bcast_S1x50_S2000000x50_0_1 : S1x50.BroadcastsInDim S2000000x50 (![0, 1] : Fin 2 → Fin S2000000x50.rank)
  transposes_S2x50_S50x2_1_0 : S2x50.Transposes [1, 0] S50x2
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  dot_S2000000x2_S2x50_S2000000x50_1_0_0_1_n_n_wf : DotDims.WF S2000000x2 S2x50 S2000000x50 [1] [0] [0] [1] [] []
  dot_S2000000x50_S50x2_S2000000x2_1_0_0_1_n_n_wf : DotDims.WF S2000000x50 S50x2 S2000000x2 [1] [0] [0] [1] [] []

variable [Facts₀]

def dot_S2000000x2_S2x50_S2000000x50_1_0_0_1_n_n : DotDims S2000000x2 S2x50 S2000000x50 where
  lhsContracting := [1]
  rhsContracting := [0]
  lhsNonContracting := [0]
  rhsNonContracting := [1]
  lhsBatch := []
  rhsBatch := []
  wf := dot_S2000000x2_S2x50_S2000000x50_1_0_0_1_n_n_wf
def dot_S2000000x50_S50x2_S2000000x2_1_0_0_1_n_n : DotDims S2000000x50 S50x2 S2000000x2 where
  lhsContracting := [1]
  rhsContracting := [0]
  lhsNonContracting := [0]
  rhsNonContracting := [1]
  lhsBatch := []
  rhsBatch := []
  wf := dot_S2000000x50_S50x2_S2000000x2_1_0_0_1_n_n_wf

class Facts : Prop extends Facts₀ where

variable [Facts]
-- ==== Proof.Spec.lean ====
/-
  A two-layer perceptron with a tanh between the layers, one sample at a time.

  A sample is its two features `ys 0`, `ys 1`. The first layer has fifty hidden units: unit `j` is
  `tanh (Σ_k W1[j,k] · ys k + b1 j)`. The second layer has two outputs: output `d` is
  `Σ_j W2[d,j] · hidden j + b2 d`. Everything is read over the extended reals, where the sums, the
  products and the hyperbolic tangent are the exact ones.

  The whole result is a function of the sample alone: the batch is two million independent samples, and the
  only thing that differs between two ways of laying the batch out (samples along the rows, or samples along the
  lanes, cut into blocks and the blocks into chunks) is WHERE sample `b`'s features and outputs sit.
  Nothing here depends on a program.
-/
import Idealize.ShloMosaic.PureOps.Ideal
import Idealize.ShloMosaic.Lib.ValueIdx

noncomputable section

open scoped BigOperators

namespace Cert.Mlp

open Idealize.ShloMosaic Idealize.ShloMosaic.ValueIdx

/-- Hidden unit `j` of the sample with features `ys`. -/
def hidden (W1 : (⟨2, ![50, 2]⟩ : Shape).Idx → EReal) (b1 : Fin 50 → EReal) (ys : Fin 2 → EReal) (j : Fin 50) : EReal :=
  Ideal.tanh ((∑ k : Fin 2, W1 (ix2 j k) * ys k) + b1 j)

/-- Output `d` of the sample with features `ys`. -/
def output (W1 : (⟨2, ![50, 2]⟩ : Shape).Idx → EReal) (b1 : Fin 50 → EReal)
    (W2 : (⟨2, ![2, 50]⟩ : Shape).Idx → EReal) (b2 : Fin 2 → EReal) (ys : Fin 2 → EReal) (d : Fin 2) : EReal :=
  (∑ j : Fin 50, W2 (ix2 d j) * hidden W1 b1 ys j) + b2 d

/-- The batch with the samples along the rows: row `b` of the result is the two outputs of row `b` of `y`. -/
def rows (y : (⟨2, ![2000000, 2]⟩ : Shape).Idx → EReal) (W1 : (⟨2, ![50, 2]⟩ : Shape).Idx → EReal)
    (b1 : (⟨1, ![50]⟩ : Shape).Idx → EReal) (W2 : (⟨2, ![2, 50]⟩ : Shape).Idx → EReal)
    (b2 : (⟨1, ![2]⟩ : Shape).Idx → EReal) : (⟨2, ![2000000, 2]⟩ : Shape).Idx → EReal :=
  fun i => output W1 (fun j => b1 (ix1 j)) W2 (fun d => b2 (ix1 d)) (fun k => y (ix2 (i 0) k)) (i 1)

/-- The batch with the samples along the lanes: column `b` of the result is the two outputs of column `b` of the
    transposed batch `yT`, the biases given as columns. Stated for any number `n` of samples, so that it reads a
    whole array, one of its blocks, or one chunk of a block. -/
def lanes {n : Nat} (yT : (⟨2, ![2, n]⟩ : Shape).Idx → EReal) (W1 : (⟨2, ![50, 2]⟩ : Shape).Idx → EReal)
    (b1c : (⟨2, ![50, 1]⟩ : Shape).Idx → EReal) (W2 : (⟨2, ![2, 50]⟩ : Shape).Idx → EReal)
    (b2c : (⟨2, ![2, 1]⟩ : Shape).Idx → EReal) : (⟨2, ![2, n]⟩ : Shape).Idx → EReal :=
  fun i => output W1 (fun j => b1c (ix2 j 0)) W2 (fun d => b2c (ix2 d 0)) (fun k => yT (ix2 k (i 1))) (i 0)

/-- The lane layout read at a sample depends on the batch only through that sample's column. -/
theorem lanes_congr {n n' : Nat} (yT : (⟨2, ![2, n]⟩ : Shape).Idx → EReal) (yT' : (⟨2, ![2, n']⟩ : Shape).Idx → EReal)
    (W1 : (⟨2, ![50, 2]⟩ : Shape).Idx → EReal) (b1c : (⟨2, ![50, 1]⟩ : Shape).Idx → EReal)
    (W2 : (⟨2, ![2, 50]⟩ : Shape).Idx → EReal) (b2c : (⟨2, ![2, 1]⟩ : Shape).Idx → EReal)
    (i : (⟨2, ![2, n]⟩ : Shape).Idx) (i' : (⟨2, ![2, n']⟩ : Shape).Idx)
    (h0 : i 0 = i' 0) (hy : ∀ k : Fin 2, yT (ix2 k (i 1)) = yT' (ix2 k (i' 1))) :
    lanes yT W1 b1c W2 b2c i = lanes yT' W1 b1c W2 b2c i' := by
  unfold lanes
  rw [h0, funext hy]

end Cert.Mlp

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KernelChunk.lean ====
/-
  One chunk of the kernel's body, read at an index.

  The body treats the 80000 samples of a block in five chunks of 16000, and every chunk goes through the same
  arithmetic: the 50×2 weights times the 2×16000 chunk, the first bias added along the lanes, tanh, the 2×50
  weights times the 50×16000 hidden activations, the second bias added along the lanes. The changes of float
  format in between are the identity over the extended reals. So at lane `l` of the chunk and output row `d`
  the chunk's result is output `d` of the perceptron on the sample in column `l`: the lane layout of the
  specification, on a batch of 16000.
-/
import proofs.«415491_j17867063951492_3_alg».proof.Proof.Gen.KernelIdeal.Skeleton
import proofs.«415491_j17867063951492_3_alg».proof.Proof.Spec
import proofs.«415491_j17867063951492_3_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Chunk

open Idealize.ShloMosaic Idealize.ShloMosaic.ValueIdx Cert.KernelIdeal Cert.KernelIdeal.Gen

/-- The first product's contraction pattern is the plain one: 50×2 by 2×16000. -/
theorem dot_first : dot_S50x2_S2x16000_S50x16000_1_0_0_1_n_n = DotDims.plain 50 2 16000 := rfl

/-- The second product's contraction pattern is the plain one: 2×50 by 50×16000. -/
theorem dot_second : dot_S2x50_S50x16000_S2x16000_1_0_0_1_n_n = DotDims.plain 2 50 16000 := rfl

/-- The first bias, a column of fifty, broadcast along the lanes: row `j` everywhere in row `j`. -/
theorem bias_first (v : FVec Ideal S50x1 .f32) (j : Fin 50) (l : Fin 16000) :
    broadcastTo S50x16000 v broadcasts_S50x1_S50x16000 (ix2 j l) = v (ix2 j 0) :=
  broadcastTo_apply v broadcasts_S50x1_S50x16000 (ix2 j l) (ix2 j 0) (fun a => match a with
    | ⟨0, _⟩ => by show j.val = if (50 : Nat) = 1 then 0 else j.val; rw [if_neg (by decide)]
    | ⟨1, _⟩ => by show 0 = if (1 : Nat) = 1 then 0 else l.val; rw [if_pos rfl])

/-- The second bias, a column of two, broadcast along the lanes. -/
theorem bias_second (v : FVec Ideal S2x1 .f32) (d : Fin 2) (l : Fin 16000) :
    broadcastTo S2x16000 v broadcasts_S2x1_S2x16000 (ix2 d l) = v (ix2 d 0) :=
  broadcastTo_apply v broadcasts_S2x1_S2x16000 (ix2 d l) (ix2 d 0) (fun a => match a with
    | ⟨0, _⟩ => by show d.val = if (2 : Nat) = 1 then 0 else d.val; rw [if_neg (by decide)]
    | ⟨1, _⟩ => by show 0 = if (1 : Nat) = 1 then 0 else l.val; rw [if_pos rfl])

/-- The hidden activations of a chunk: unit `j` of the sample in lane `l`. -/
theorem hidden_apply (W1 : FVec Ideal S50x2 .f32) (b1c : FVec Ideal S50x1 .f32) (yc : FVec Ideal S2x16000 .f32)
    (j : Fin 50) (l : Fin 16000) :
    tanh (F := Ideal) (addf (matmul dot_S50x2_S2x16000_S50x16000_1_0_0_1_n_n none
        (truncf .bf16 W1 bitsLt_bf16_f32)
        (truncf .bf16 (shapeCast S2x16000 yc shapeCasts_S2x16000_S2x16000) bitsLt_bf16_f32)
        (constant S50x16000 .f32 0x00000000#32))
      (broadcastTo S50x16000 (shapeCast S50x1 b1c shapeCasts_S50x1_S50x1) broadcasts_S50x1_S50x16000)) (ix2 j l)
      = Mlp.hidden W1 (fun j => b1c (ix2 j 0)) (fun k => yc (ix2 k l)) j := by
  rw [shapeCast_self, shapeCast_self, dot_first]
  show Ideal.tanh (FloatOps.matmul (F := Ideal) (DotDims.plain 50 2 16000) none _ _ (constant (F := Ideal) ⟨2, ![50, 16000]⟩ .f32 0x00000000#32) (ix2 j l)
    + broadcastTo S50x16000 b1c broadcasts_S50x1_S50x16000 (ix2 j l)) = _
  rw [LibPlainDot.matmul_zero_apply, bias_first]
  rfl

/-- One chunk's result is the perceptron in the lane layout, on the chunk's 16000 samples. -/
theorem chunk_apply (W1 : FVec Ideal S50x2 .f32) (b1c : FVec Ideal S50x1 .f32) (W2 : FVec Ideal S2x50 .f32)
    (b2c : FVec Ideal S2x1 .f32) (yc : FVec Ideal S2x16000 .f32) (i : S2x16000.Idx) :
    k0_pay6 (F := Ideal) W1 b1c W2 b2c yc i = Mlp.lanes yc W1 b1c W2 b2c i := by
  obtain ⟨d, l, rfl⟩ : ∃ (d : Fin 2) (l : Fin 16000), i = ix2 d l := ⟨i 0, i 1, eq_ix2 i⟩
  show FloatOps.matmul (F := Ideal) dot_S2x50_S50x16000_S2x16000_1_0_0_1_n_n none (truncf .bf16 W2 bitsLt_bf16_f32)
      (truncf .bf16 (tanh (F := Ideal) (addf (matmul dot_S50x2_S2x16000_S50x16000_1_0_0_1_n_n none
          (truncf .bf16 W1 bitsLt_bf16_f32)
          (truncf .bf16 (shapeCast S2x16000 yc shapeCasts_S2x16000_S2x16000) bitsLt_bf16_f32)
          (constant S50x16000 .f32 0x00000000#32))
        (broadcastTo S50x16000 (shapeCast S50x1 b1c shapeCasts_S50x1_S50x1) broadcasts_S50x1_S50x16000))) bitsLt_bf16_f32)
      (constant (F := Ideal) S2x16000 .f32 0x00000000#32) (ix2 d l)
    + broadcastTo S2x16000 (shapeCast S2x1 b2c shapeCasts_S2x1_S2x1) broadcasts_S2x1_S2x16000 (ix2 d l) = _
  rw [dot_second, LibPlainDot.matmul_zero_apply, shapeCast_self b2c, bias_second]
  exact congrArg₂ (· + ·) (Finset.sum_congr rfl fun j _ =>
    congrArg₂ (· * ·) rfl (hidden_apply W1 b1c yc j l)) rfl

end Cert.KernelIdeal.Chunk

end
-- ==== Proof.KernelBlock.lean ====
/-
  What the kernel's body leaves in the output block.

  The body writes the 2×80000 output block in five stores, store `r` covering the columns `16000·r` to
  `16000·r + 15999` with the chunk arithmetic applied to the same columns of the input block. Column by column that is
  the perceptron on the sample in that column, whichever chunk the column falls in: the block the body leaves is the
  lane layout of the specification on the block's 80000 samples. The five stores tile the block, so every column is
  written.
-/
import proofs.«415491_j17867063951492_3_alg».proof.Proof.Gen.KernelIdeal.Frame
import proofs.«415491_j17867063951492_3_alg».proof.Proof.KernelChunk
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Block

open Cert.KernelIdeal Cert.KernelIdeal.Gen

theorem zeros2 : (![0, 0] : Fin 2 → Nat) = fun _ => 0 := funext fun a => by fin_cases a <;> rfl

/-- The chunk arithmetic over the columns from `o` on of the input block, read at a place of the store's own
    rectangle, is the lane layout on the whole block read at that place of the block: the row is the same, and the
    sample is the one in column `o +` the place's column. -/
theorem piece_agrees (x0 : FVec Ideal S2x80000 .f32) (x1 : FVec Ideal S50x2 .f32) (x2 : FVec Ideal S50x1 .f32)
    (x3 : FVec Ideal S2x50 .f32) (x4 : FVec Ideal S2x1 .f32) (o : Nat)
    (inb : ∀ a, (![0, o] : Fin 2 → Nat) a + (![2, 16000] : Fin 2 → Nat) a ≤ S2x80000.size a)
    (x : (Rect.unit (s := S2x80000) ![0, o] ![2, 16000] inb).shape.Idx) :
    k0_pay6 (F := Ideal) x1 x2 x3 x4 (View.ld x0 (Rect.unit (s := S2x80000) ![0, o] ![2, 16000] inb)) x
      = Mlp.lanes x0 x1 x2 x3 x4 ((Rect.unit (s := S2x80000) ![0, o] ![2, 16000] inb).emb x) := by
  refine (Chunk.chunk_apply x1 x2 x3 x4 _ x).trans (Mlp.lanes_congr _ x0 x1 x2 x3 x4 x _ ?_ ?_)
  · exact Fin.ext (by show (x 0).val = 0 + 1 * (x 0).val; omega)
  · intro k
    show x0 _ = x0 _
    refine congrArg x0 (funext fun a => Fin.ext ?_)
    match a with
    | ⟨0, _⟩ => show 0 + 1 * k.val = k.val; omega
    | ⟨1, _⟩ => rfl

/-- The block the body leaves: the perceptron on each of the block's 80000 samples, in the lane layout. -/
theorem out_block (c : Dev nD) (i : grid0.Coords) (a1 : Memref sig .tc .vmem S2x80000 .f32) (h1 : a1.IsWhole)
    (a2 : Memref sig .tc .vmem S50x2 .f32) (h2 : a2.IsWhole) (a3 : Memref sig .tc .vmem S50x1 .f32) (h3 : a3.IsWhole)
    (a4 : Memref sig .tc .vmem S2x50 .f32) (h4 : a4.IsWhole) (a5 : Memref sig .tc .vmem S2x1 .f32) (h5 : a5.IsWhole)
    (a6 : Memref sig .tc .vmem S2x80000 .f32) (h6 : a6.IsWhole)
    (x0 : Vec Ideal S2x80000 .f32) (x1 : Vec Ideal S50x2 .f32) (x2 : Vec Ideal S50x1 .f32) (x3 : Vec Ideal S2x50 .f32)
    (x4 : Vec Ideal S2x1 .f32) :
    out0_A_5 (F := Ideal) c i a1 h1 a2 h2 a3 h3 a4 h4 a5 h5 a6 h6 x0 x1 x2 x3 x4 = Mlp.lanes x0 x1 x2 x3 x4 := by
  unfold out0_A_5
  rw [View.read_writes_eq_canon _ _ _ (cover0_A_5 c i a1 h1 a2 h2 a3 h3 a4 h4 a5 h5 a6 h6 x0 x1 x2 x3 x4)]
  funext y
  refine View.canon_apply_of_pieces (Mlp.lanes x0 x1 x2 x3 x4) _ ?_ y
    (cover0_A_5 c i a1 h1 a2 h2 a3 h3 a4 h4 a5 h5 a6 h6 x0 x1 x2 x3 x4 y)
  unfold kernelRun0_A
  dsimp only
  sl_unfold_words
  simp only [View.readAt_eq_ld, h1.read_unread, h2.read_unread, h3.read_unread, h4.read_unread, h5.read_unread,
    View.ld_unit_zero (S := S50x2) zeros2, View.ld_unit_zero (S := S50x1) zeros2, View.ld_unit_zero (S := S2x50) zeros2,
    View.ld_unit_zero (S := S2x1) zeros2]
  intro p hp x
  simp only [List.mem_cons, List.mem_nil_iff, or_false] at hp
  rcases hp with rfl | rfl | rfl | rfl | rfl
  · exact piece_agrees x0 x1 x2 x3 x4 64000 _ x
  · exact piece_agrees x0 x1 x2 x3 x4 48000 _ x
  · exact piece_agrees x0 x1 x2 x3 x4 32000 _ x
  · exact piece_agrees x0 x1 x2 x3 x4 16000 _ x
  · exact piece_agrees x0 x1 x2 x3 x4 0 _ x

end Cert.KernelIdeal.Block

end
-- ==== Proof.KernelArray.lean ====
/-
  From the blocks to the whole result array of the kernel.

  The grid has 25 points. At point `t` the batch window and the output window sit on the columns `80000·t` to
  `80000·t + 79999` of their 2×2000000 arrays, and the four parameter windows are their whole arrays at every
  point. The block the body leaves at `t` is the perceptron on the 80000 samples of the batch's block, which are
  the samples `80000·t + l` of the whole batch: so what point `t` writes back is block `t` of ONE function of the
  whole arrays, the perceptron on every column of the transposed batch. The 25 blocks tile the array (sample `b`
  is in block `b / 80000`), so after the run the array is that function.
-/
import proofs.«415491_j17867063951492_3_alg».proof.Proof.Gen.KernelIdeal.Frame
import proofs.«415491_j17867063951492_3_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

/-- The five arrays the windows stage, as the region finds them: the transposed batch, the first layer's weights
    and its bias as a column, the second layer's weights and its bias as a column. -/
abbrev batchT (c : Dev nD) : FVec Ideal S2x2000000 .f32 := V m c main_v0
abbrev weights1 (c : Dev nD) : FVec Ideal S50x2 .f32 := V m c main_arg2
abbrev bias1col (c : Dev nD) : FVec Ideal S50x1 .f32 := V m c main_v1
abbrev weights2 (c : Dev nD) : FVec Ideal S2x50 .f32 := V m c main_arg4
abbrev bias2col (c : Dev nD) : FVec Ideal S2x1 .f32 := V m c main_v2

/-- The result array: the perceptron on every column of the transposed batch. -/
abbrev resultT (c : Dev nD) : FVec Ideal S2x2000000 .f32 :=
  Mlp.lanes (batchT m c) (weights1 m c) (bias1col m c) (weights2 m c) (bias2col m c)

/-- Where each window sits at point `t`: the batch and the output on block column `t`, the parameters on their
    one block. -/
theorem index_maps : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- A parameter window's block is its whole array, at every point. -/
theorem weights1_block (c : Dev nD) (t : Fin cfg0.N) : (iblk m c 1 t : FVec Ideal S50x2 .f32) = weights1 m c := by
  obtain ⟨-, -, e0, e1, -⟩ := index_maps t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 50 + 1 * (y 0).val = (y 0).val; rw [e0]; omega
  | ⟨1, _⟩ => show win0_1.index t (1 : Fin 2) * 2 + 1 * (y 1).val = (y 1).val; rw [e1]; omega

theorem bias1_block (c : Dev nD) (t : Fin cfg0.N) : (iblk m c 2 t : FVec Ideal S50x1 .f32) = bias1col m c := by
  obtain ⟨-, -, -, -, e0, e1, -⟩ := index_maps t
  funext y
  show V m c main_v1 (((cfg0.win 2).blk t).view.emb y) = V m c main_v1 y
  refine congrArg (V m c main_v1) (funext fun a => Fin.ext ?_)
  match a with
  | ⟨0, _⟩ => show win0_2.index t (0 : Fin 2) * 50 + 1 * (y 0).val = (y 0).val; rw [e0]; omega
  | ⟨1, _⟩ => show win0_2.index t (1 : Fin 2) * 1 + 1 * (y 1).val = (y 1).val; rw [e1]; omega

theorem weights2_block (c : Dev nD) (t : Fin cfg0.N) : (iblk m c 3 t : FVec Ideal S2x50 .f32) = weights2 m c := by
  obtain ⟨-, -, -, -, -, -, e0, e1, -⟩ := index_maps t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 2 + 1 * (y 0).val = (y 0).val; rw [e0]; omega
  | ⟨1, _⟩ => show win0_3.index t (1 : Fin 2) * 50 + 1 * (y 1).val = (y 1).val; rw [e1]; omega

theorem bias2_block (c : Dev nD) (t : Fin cfg0.N) : (iblk m c 4 t : FVec Ideal S2x1 .f32) = bias2col m c := by
  obtain ⟨-, -, -, -, -, -, -, -, e0, e1, -⟩ := index_maps t
  funext y
  show V m c main_v2 (((cfg0.win 4).blk t).view.emb y) = V m c main_v2 y
  refine congrArg (V m c main_v2) (funext fun a => Fin.ext ?_)
  match a with
  | ⟨0, _⟩ => show win0_4.index t (0 : Fin 2) * 2 + 1 * (y 0).val = (y 0).val; rw [e0]; omega
  | ⟨1, _⟩ => show win0_4.index t (1 : Fin 2) * 1 + 1 * (y 1).val = (y 1).val; rw [e1]; omega

/-- What the body leaves at point `t`, over the blocks by their literal types. -/
theorem outs_eq (c : Dev nD) (t : Fin cfg0.N) :
    outsAt0 m c t = Mlp.lanes (iblk m c 0 t : FVec Ideal S2x80000 .f32) (weights1 m c) (bias1col m c) (weights2 m c) (bias2col m c) := by
  rw [← weights1_block m c t, ← bias1_block m c t, ← weights2_block m c t, ← bias2_block m c t]
  exact Block.out_block c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)

/-- What point `t` writes back is block `t` of the result array's function. -/
theorem flushed_eq (c : Dev nD) (t : Fin cfg0.N) :
    (dats m 0 c).flushed 5 t = ((cfg0.win 5).blk t).view.read (Elt Ideal) (resultT m c) := by
  show (cfg0.win 5).cut (grid0.coords t) ((dats m 0 c).after 5 t) = _
  rw [after0_5, outs_eq]
  obtain ⟨a0, a1, -, -, -, -, -, -, -, -, o0, o1⟩ := index_maps t
  funext j
  show Mlp.lanes (iblk m c 0 t : FVec Ideal S2x80000 .f32) (weights1 m c) (bias1col m c) (weights2 m c) (bias2col m c) j
      = Mlp.lanes (batchT m c) (weights1 m c) (bias1col m c) (weights2 m c) (bias2col m c) (((cfg0.win 5).blk t).view.emb j)
  refine Mlp.lanes_congr _ _ _ _ _ _ j _ ?_ ?_
  · exact Fin.ext (by show (j 0).val = win0_5.index t (0 : Fin 2) * 2 + 1 * (j 0).val; rw [o0]; omega)
  · intro k
    show V m c main_v0 (((cfg0.win 0).blk t).view.emb (ix2 k (j 1))) = V m c main_v0 (ix2 k ((((cfg0.win 5).blk t).view.emb j) 1))
    refine congrArg (V m c main_v0) (funext fun a => Fin.ext ?_)
    match a with
    | ⟨0, _⟩ => show win0_0.index t (0 : Fin 2) * 2 + 1 * k.val = k.val; rw [a0]; omega
    | ⟨1, _⟩ => show win0_0.index t (1 : Fin 2) * 80000 + 1 * (j 1).val = win0_5.index t (1 : Fin 2) * 80000 + 1 * (j 1).val; rw [a1, o1]

/-- A place of the result array is in point `t`'s block iff each coordinate is in the block's range. -/
theorem mem_block (t : Fin cfg0.N) (i : S2x2000000.Idx) :
    i ∈ ((cfg0.win 5).blk t).view.set ↔ ∀ a : Fin 2, win0_5.index t a * S2x80000.size a ≤ (i a).val
      ∧ (i a).val < win0_5.index t a * S2x80000.size a + S2x80000.size a := by
  show i ∈ ((View.whole main_v3).slice (win0_5.rect t)).set ↔ _
  rw [View.set_slice_whole, Rect.mem_set_unit]
  exact Iff.rfl

/-- After the run the result array is the perceptron on every column of the transposed batch: sample `b` is written
    by point `b / 80000`. -/
theorem final (c : Dev nD) : (dats m 0 c).arrAt 5 cfg0.N = resultT m c :=
  (dats m 0 c).arrAt_eq_of_cover 5 (resultT m c) (fun t _ => flushed_eq m c t) fun i => by
    have hi0 : (i 0 : Nat) < 2 := (i 0).isLt
    have hi1 : (i 1 : Nat) < 2000000 := (i 1).isLt
    have hN : cfg0.N = 25 := N_0
    have hlt : (i 1 : Nat) / 80000 < cfg0.N := by rw [hN]; omega
    obtain ⟨-, -, -, -, -, -, -, -, -, -, o0, o1⟩ := index_maps ⟨(i 1 : Nat) / 80000, hlt⟩
    refine ⟨⟨(i 1 : Nat) / 80000, hlt⟩, flush0_5 _, ?_⟩
    rw [mem_block]
    intro a
    match a with
    | ⟨0, _⟩ =>
      show win0_5.index ⟨(i 1 : Nat) / 80000, hlt⟩ (0 : Fin 2) * 2 ≤ (i 0 : Nat)
        ∧ (i 0 : Nat) < win0_5.index ⟨(i 1 : Nat) / 80000, hlt⟩ (0 : Fin 2) * 2 + 2
      rw [o0]; omega
    | ⟨1, _⟩ =>
      show win0_5.index ⟨(i 1 : Nat) / 80000, hlt⟩ (1 : Fin 2) * 80000 ≤ (i 1 : Nat)
        ∧ (i 1 : Nat) < win0_5.index ⟨(i 1 : Nat) / 80000, hlt⟩ (1 : Fin 2) * 80000 + 80000
      rw [o1]; dsimp only; omega

/-- The closing transpose of the program reads the result array with its coordinates swapped. -/
theorem tail_eq (c : Dev nD) :
    Pipeline.afterTail₀ cfgs (dats m) 0 (V0 m) [hostOps1] c main_v4
      = transpose S2000000x2 [1, 0] (resultT m c) transposes_S2x2000000_S2000000x2_1_0 := by
  unfold Pipeline.afterTail₀
  show StableHlo.after hostOps1 _ (Proc.devRef .tc main_v4) = _
  after_results
  exact congrArg (fun x => transpose S2000000x2 [1, 0] x transposes_S2x2000000_S2000000x2_1_0)
    ((Pipeline.withArrays_arr spec0 launch0.win.arr_inj c _ _ 5).trans (final m c))

/-- The transposed batch is the batch with its coordinates swapped. -/
theorem batchT_eq (c : Dev nD) :
    batchT m c = transpose S2x2000000 [1, 0] (m ((c : Thread nD τ).loc main_arg1)) transposes_S2000000x2_S2x2000000_1_0 := by
  show StableHlo.after hostOps0 (fun b => m (c, b)) (Proc.devRef .tc main_v0) = _
  after_results

/-- The first bias as a column is the bias vector reshaped. -/
theorem bias1col_eq (c : Dev nD) :
    bias1col m c = shapeCast S50x1 (m ((c : Thread nD τ).loc main_arg3)) shapeCasts_S50_S50x1 := by
  show StableHlo.after hostOps0 (fun b => m (c, b)) (Proc.devRef .tc main_v1) = _
  after_results
  rfl

/-- The second bias as a column is the bias vector reshaped. -/
theorem bias2col_eq (c : Dev nD) :
    bias2col m c = shapeCast S2x1 (m ((c : Thread nD τ).loc main_arg5)) shapeCasts_S2_S2x1 := by
  show StableHlo.after hostOps0 (fun b => m (c, b)) (Proc.devRef .tc main_v2) = _
  after_results
  rfl

/-- The program's result in the row layout: row `b` of the closing transpose is column `b` of the result array, the
    perceptron on column `b` of the transposed batch, which is row `b` of the batch; the bias columns read their
    vectors entry by entry. -/
theorem result_rows (c : Dev nD) :
    transpose S2000000x2 [1, 0] (resultT m c) transposes_S2x2000000_S2000000x2_1_0
      = Mlp.rows (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  rw [transpose_apply [1, 0] (resultT m c) transposes_S2x2000000_S2000000x2_1_0 i (ix2 (i 1) (i 0))
    (fun b => match b with | ⟨0, _⟩ => rfl | ⟨1, _⟩ => rfl)]
  have e1 : weights1 m c = m ((c : Thread nD τ).loc main_arg2) := V_main_arg2 m c
  have e2 : weights2 m c = m ((c : Thread nD τ).loc main_arg4) := V_main_arg4 m c
  have e3 : (fun j : Fin 50 => bias1col m c (ix2 j 0)) = fun j => m ((c : Thread nD τ).loc main_arg3) (ix1 j) :=
    funext fun j => by
      rw [bias1col_eq]
      exact shapeCast_apply _ shapeCasts_S50_S50x1 (ix2 j 0) (ix1 j) (by
        rw [Shape.rowMajor_val_one, Shape.rowMajor_val_two]; show j.val = j.val * 1 + 0; omega)
  have e4 : (fun d : Fin 2 => bias2col m c (ix2 d 0)) = fun d => m ((c : Thread nD τ).loc main_arg5) (ix1 d) :=
    funext fun d => by
      rw [bias2col_eq]
      exact shapeCast_apply _ shapeCasts_S2_S2x1 (ix2 d 0) (ix1 d) (by
        rw [Shape.rowMajor_val_one, Shape.rowMajor_val_two]; show d.val = d.val * 1 + 0; omega)
  have e5 : (fun k : Fin 2 => batchT m c (ix2 k (i 0))) = fun k => m ((c : Thread nD τ).loc main_arg1) (ix2 (i 0) k) :=
    funext fun k => by
      rw [batchT_eq]
      exact transpose_apply [1, 0] _ transposes_S2000000x2_S2x2000000_1_0 (ix2 k (i 0)) (ix2 (i 0) k)
        (fun b => match b with | ⟨0, _⟩ => rfl | ⟨1, _⟩ => rfl)
  show Mlp.output (weights1 m c) (fun j => bias1col m c (ix2 j 0)) (weights2 m c) (fun d => bias2col m c (ix2 d 0))
      (fun k => batchT m c (ix2 k (i 0))) (i 1) = _
  rw [e1, e2, e3, e4, e5]
  rfl

/-- The run, read: every weakly fair execution ends with the program's result at the perceptron on every row of the
    batch, and the six arguments as they were. -/
theorem run : θ_run defs (onTc (τ := τ) (main (F := Ideal))) ⟨m, fun _ => 0, ρ⟩ fun r => ∀ c : Dev nD,
      r.2.mem ((c.tc : Thread nD τ).loc main_v4)
        = Mlp.rows (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans ((tail_eq m c).trans (result_rows m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Array

end
-- ==== Proof.RefValue.lean ====
/-
  The reference computes the row layout of the specification.

  Its last stage at row `b` and column `d` is, one operation at a time: the second bias `b2 d` added to the sum over
  the fifty hidden units `j` of (the hidden activation of sample `b`) times `W2ᵀ[j,d] = W2[d,j]`; the hidden
  activation is tanh of the first bias `b1 j` added to the sum over the two features `k` of `y[b,k]` times
  `W1ᵀ[k,j] = W1[j,k]`. The specification writes each product with the weight first; multiplication of extended
  reals is commutative, and nothing else differs: no sum is reordered.
-/
import proofs.«415491_j17867063951492_3_alg».proof.Proof.Gen.ReferenceIdeal.Read
import proofs.«415491_j17867063951492_3_alg».proof.Proof.Spec

noncomputable section

open scoped BigOperators

namespace Cert.ReferenceIdeal.RefValue

open Idealize.ShloMosaic Idealize.ShloMosaic.ValueIdx Cert.ReferenceIdeal Cert.ReferenceIdeal.Read

/-- The reference's result, as a function of its five array arguments, is the perceptron on every row of the batch. -/
theorem reference_eq (y : FVec Ideal S2000000x2 .f32) (W1 : FVec Ideal S50x2 .f32) (b1 : FVec Ideal S50 .f32)
    (W2 : FVec Ideal S2x50 .f32) (b2 : FVec Ideal S2 .f32) :
    val_main_v10 (F := Ideal) y W1 b1 W2 b2 = Mlp.rows y W1 b1 W2 b2 := by
  funext i
  rw [val_main_v10_apply, val_main_v7_apply, val_main_v9_apply, val_main_v8_apply]
  show (∑ j : Fin 50, _) + _ = (∑ j : Fin 50, _) + _
  refine congrArg₂ (· + ·) (Finset.sum_congr rfl fun j _ => ?_) ?_
  · rw [val_main_v6_apply, val_main_v5_apply, val_main_v4_apply, val_main_v1_apply, val_main_v3_apply,
      val_main_v2_apply, mul_comm]
    refine congrArg₂ (· * ·) ?_ ?_
    · exact congrArg W2 (funext fun a => Fin.ext (by match a with | ⟨0, _⟩ => rfl | ⟨1, _⟩ => rfl))
    · show Ideal.tanh ((∑ k : Fin 2, _) + _) = Ideal.tanh ((∑ k : Fin 2, _) + _)
      refine congrArg Ideal.tanh (congrArg₂ (· + ·) (Finset.sum_congr rfl fun k _ => ?_) ?_)
      · rw [val_main_v0_apply, mul_comm]
        refine congrArg₂ (· * ·) ?_ ?_
        · exact congrArg W1 (funext fun a => Fin.ext (by match a with | ⟨0, _⟩ => rfl | ⟨1, _⟩ => rfl))
        · exact congrArg y (funext fun a => Fin.ext (by match a with | ⟨0, _⟩ => rfl | ⟨1, _⟩ => rfl))
      · exact congrArg b1 (funext fun a => Fin.ext (by match a with | ⟨0, _⟩ => rfl))
  · exact congrArg b2 (funext fun a => Fin.ext (by match a with | ⟨0, _⟩ => rfl))

end Cert.ReferenceIdeal.RefValue

end
-- ==== Proof.lean ====
/-
  A two-layer perceptron with a tanh between the layers, applied to a batch of two million samples of two
  features each: the kernel against its reference, over the extended reals.

  The reference keeps the samples along the rows: `tanh (y · W1ᵀ + b1) · W2ᵀ + b2`, two matrix products with the
  weights transposed. The kernel transposes the batch so that the samples lie along the lanes, treats it in 25 blocks
  of 80000 samples and each block in five chunks of 16000, computes `W2 · tanh (W1 · yᵀ + b1) + b2` on each chunk with
  the biases as columns and the products' operands narrowed to bf16, and transposes the result back. Over the extended
  reals a change of float format is the identity and a product into a zero accumulator is the plain sum, so both
  programs give, at sample `b` and output `d`,
      Σ_j W2[d,j] · tanh (Σ_k W1[j,k] · y[b,k] + b1[j]) + b2[d],
  the reference with each product's factors the other way round. Multiplication of extended reals is commutative; no
  sum is regrouped and nothing is distributed or cancelled, so the equality holds at the infinities too and the
  finiteness of the inputs is not used.

  The modules: the perceptron on one sample and its two layouts (Spec); one chunk of the kernel's body at an index
  (KernelChunk, over the plain matrix product of LibPlainDot); the output block the body leaves, its five stores tiling
  it (KernelBlock); the 25 blocks tiling the result array, the three host operations before the kernel, the closing
  transpose, and the kernel's run re-posted (KernelArray); the reference's last stage as the row layout (RefValue).
  The idealization rewrote nothing, so the kernel's idealized program is its own text and that conjunct is trivial; each
  program's frame is its run with the result dropped.
-/
import proofs.«415491_j17867063951492_3_alg».proof.Defs
import proofs.«415491_j17867063951492_3_alg».proof.Proof.Gen.Kernel
import proofs.«415491_j17867063951492_3_alg».proof.Proof.Gen.Kernel.Skeleton
import proofs.«415491_j17867063951492_3_alg».proof.Proof.Gen.Kernel.Launch
import proofs.«415491_j17867063951492_3_alg».proof.Proof.Gen.Kernel.Points
import proofs.«415491_j17867063951492_3_alg».proof.Proof.Gen.Kernel.Frame
import proofs.«415491_j17867063951492_3_alg».proof.Proof.Gen.KernelIdeal
import proofs.«415491_j17867063951492_3_alg».proof.Proof.Gen.KernelIdeal.Skeleton
import proofs.«415491_j17867063951492_3_alg».proof.Proof.Gen.KernelIdeal.Launch
import proofs.«415491_j17867063951492_3_alg».proof.Proof.Gen.KernelIdeal.Points
import proofs.«415491_j17867063951492_3_alg».proof.Proof.Gen.KernelIdeal.Frame
import proofs.«415491_j17867063951492_3_alg».proof.Proof.Gen.ReferenceIdeal
import proofs.«415491_j17867063951492_3_alg».proof.Proof.Gen.ReferenceIdeal.Run
import proofs.«415491_j17867063951492_3_alg».proof.Proof.Gen.ReferenceIdeal.Read
import proofs.«415491_j17867063951492_3_alg».proof.Proof.Gen.Pre_finite_inputs
import proofs.«415491_j17867063951492_3_alg».proof.Proof.KernelArray
import proofs.«415491_j17867063951492_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is eleven host operations in a row: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the perceptron on every row of the batch: the kernel by its run read block by block, the
    reference by its last stage read operation by operation, on arguments that agree. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
